-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S128x1024x16 : Shape := ⟨3, ![128, 1024, 16]⟩
abbrev S_ : Shape := ⟨0, ![]⟩

class Facts : Prop where
  bcast_S_S128x1024x16 : S_.BroadcastsInDim S128x1024x16 (![] : Fin 0 → Fin S128x1024x16.rank)
  reducesTo_S128x1024x16_S_d0_1_2 : S128x1024x16.ReducesTo [0, 1, 2] S_
  h_S_ : 0 < S_.numel

variable [Facts]

def fn {F : FTy → Type} [FloatOps F] (main_arg0 : IVec S128x1024x16 32) : IVec S_ 1 :=
  let main_c : IVec S_ 32 := constantI S_ 32 0#32
  let main_v0 : IVec S128x1024x16 32 := broadcastInDim S128x1024x16 ![] bcast_S_S128x1024x16 main_c
  let main_v1 : IVec S128x1024x16 1 := cmpi .sge main_arg0 main_v0
  let main_c_0 : IVec S_ 1 := constantI S_ 1 1#1
  let main_v2 : IVec S_ 1 := (fun x v => Host.reduce IntOp.andi x v reducesTo_S128x1024x16_S_d0_1_2 h_S_) main_v1 main_c_0
  main_v2
-- ==== Kernel.lean ====
abbrev S128x1024x16 : Shape := ⟨3, ![128, 1024, 16]⟩
abbrev S131072x16 : Shape := ⟨2, ![131072, 16]⟩
abbrev S131072x256 : Shape := ⟨2, ![131072, 256]⟩
abbrev S4096x16 : Shape := ⟨2, ![4096, 16]⟩
abbrev S4096x256 : Shape := ⟨2, ![4096, 256]⟩
abbrev S512x256 : Shape := ⟨2, ![512, 256]⟩
abbrev S512x16 : Shape := ⟨2, ![512, 16]⟩
abbrev S512x1 : Shape := ⟨2, ![512, 1]⟩
abbrev S128x1024x256 : Shape := ⟨3, ![128, 1024, 256]⟩

abbrev nBuf : Space → Nat
  | .hbm => 4
  | .vmem => 4
  | .smem => 0
  | _ => 0

abbrev bufTy : (tb : Table) → Fin (tcTables nBuf tb) → BufTy
  | .hbm, ⟨0, _⟩ => ⟨S128x1024x16, .i32⟩
  | .hbm, ⟨1, _⟩ => ⟨S131072x16, .i32⟩
  | .hbm, ⟨2, _⟩ => ⟨S131072x256, .f32⟩
  | .hbm, ⟨3, _⟩ => ⟨S128x1024x256, .f32⟩
  | .local _ .vmem, ⟨0, _⟩ => ⟨S4096x16, .i32⟩
  | .local _ .vmem, ⟨1, _⟩ => ⟨S4096x16, .i32⟩
  | .local _ .vmem, ⟨2, _⟩ => ⟨S4096x256, .f32⟩
  | .local _ .vmem, ⟨3, _⟩ => ⟨S4096x256, .f32⟩
  | _, _ => ⟨S128x1024x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_mult1 : BitVec 32 :=
  let c0_i32_0 : BitVec 32 := 0#32
  let c512_i32 : BitVec 32 := 512#32
  let v4 : BitVec 32 := Scalar.muli c0_i32_0 c512_i32
  v4
def k0_off1 (c0_i32_0 : BitVec 32) : Fin 2 → Nat :=
  let c512_i32 : BitVec 32 := 512#32
  let v4 : BitVec 32 := Scalar.muli c0_i32_0 c512_i32
  let v5 : BitVec 32 := v4
  let v6 : Index := Scalar.indexCast v5
  let c0 : Index := 0#32
  ![v6.toNat, 0]
def k0_off2 (c0_i32_0 : BitVec 32) : Fin 2 → Nat :=
  let c512_i32 : BitVec 32 := 512#32
  let v4 : BitVec 32 := Scalar.muli c0_i32_0 c512_i32
  let v5 : BitVec 32 := v4
  let v125 : Index := Scalar.indexCast v5
  let c0_2 : Index := 0#32
  ![v125.toNat, 0]
def k0_mult2 : BitVec 32 :=
  let c1_i32 : BitVec 32 := 1#32
  let c512_i32_3 : BitVec 32 := 512#32
  let v127 : BitVec 32 := Scalar.muli c1_i32 c512_i32_3
  v127
def k0_mult3 : BitVec 32 :=
  let c2_i32 : BitVec 32 := 2#32
  let c512_i32_7 : BitVec 32 := 512#32
  let v250 : BitVec 32 := Scalar.muli c2_i32 c512_i32_7
  v250
def k0_mult4 : BitVec 32 :=
  let c3_i32 : BitVec 32 := 3#32
  let c512_i32_11 : BitVec 32 := 512#32
  let v373 : BitVec 32 := Scalar.muli c3_i32 c512_i32_11
  v373
def k0_mult5 : BitVec 32 :=
  let c4_i32 : BitVec 32 := 4#32
  let c512_i32_15 : BitVec 32 := 512#32
  let v496 : BitVec 32 := Scalar.muli c4_i32 c512_i32_15
  v496
def k0_mult6 : BitVec 32 :=
  let c5_i32 : BitVec 32 := 5#32
  let c512_i32_19 : BitVec 32 := 512#32
  let v619 : BitVec 32 := Scalar.muli c5_i32 c512_i32_19
  v619
def k0_mult7 : BitVec 32 :=
  let c6_i32 : BitVec 32 := 6#32
  let c512_i32_23 : BitVec 32 := 512#32
  let v742 : BitVec 32 := Scalar.muli c6_i32 c512_i32_23
  v742
def k0_mult8 : BitVec 32 :=
  let c7_i32 : BitVec 32 := 7#32
  let c512_i32_27 : BitVec 32 := 512#32
  let v865 : BitVec 32 := Scalar.muli c7_i32 c512_i32_27
  v865
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x1024x16_S131072x16 : S128x1024x16.ShapeCasts S131072x16
  iota_S512x256_d1_w32 : S512x256.Iotas .tc 32 [1]
  h_S512x16 : 0 < S512x16.numel
  shapeCasts_S512x16_S512x16 : S512x16.ShapeCasts S512x16
  slices_S512x16_o0_0_S512x1 : S512x16.Slices ![0, 0] S512x1
  broadcasts_S512x1_S512x256 : S512x1.Broadcasts S512x256
  natLt_1_32 : 1 < 32
  bitsLt_bf16_f32 : FTy.bits .bf16 < FTy.bits .f32
  slices_S512x16_o0_1_S512x1 : S512x16.Slices ![0, 1] S512x1
  slices_S512x16_o0_2_S512x1 : S512x16.Slices ![0, 2] S512x1
  slices_S512x16_o0_3_S512x1 : S512x16.Slices ![0, 3] S512x1
  slices_S512x16_o0_4_S512x1 : S512x16.Slices ![0, 4] S512x1
  slices_S512x16_o0_5_S512x1 : S512x16.Slices ![0, 5] S512x1
  slices_S512x16_o0_6_S512x1 : S512x16.Slices ![0, 6] S512x1
  slices_S512x16_o0_7_S512x1 : S512x16.Slices ![0, 7] S512x1
  slices_S512x16_o0_8_S512x1 : S512x16.Slices ![0, 8] S512x1
  slices_S512x16_o0_9_S512x1 : S512x16.Slices ![0, 9] S512x1
  slices_S512x16_o0_10_S512x1 : S512x16.Slices ![0, 10] S512x1
  slices_S512x16_o0_11_S512x1 : S512x16.Slices ![0, 11] S512x1
  slices_S512x16_o0_12_S512x1 : S512x16.Slices ![0, 12] S512x1
  slices_S512x16_o0_13_S512x1 : S512x16.Slices ![0, 13] S512x1
  slices_S512x16_o0_14_S512x1 : S512x16.Slices ![0, 14] S512x1
  slices_S512x16_o0_15_S512x1 : S512x16.Slices ![0, 15] S512x1
  h_S512x256 : 0 < S512x256.numel
  shapeCasts_S131072x256_S128x1024x256 : S131072x256.ShapeCasts S128x1024x256
  hrank0 : 0 < grid0.rank
  k0_mult1_dvd : 512 ∣ k0_mult1.toNat
  k0_off1_inb : ∀ (r : Fin 8), ∀ a, (k0_off1 (BitVec.ofNat 32 r.val)) a + S512x16.size a ≤ S4096x16.size a
  k0_off2_inb : ∀ (r : Fin 8), ∀ a, (k0_off2 (BitVec.ofNat 32 r.val)) a + S512x256.size a ≤ S4096x256.size a
  k0_mult2_dvd : 512 ∣ k0_mult2.toNat
  k0_mult3_dvd : 512 ∣ k0_mult3.toNat
  k0_mult4_dvd : 512 ∣ k0_mult4.toNat
  k0_mult5_dvd : 512 ∣ k0_mult5.toNat
  k0_mult6_dvd : 512 ∣ k0_mult6.toNat
  k0_mult7_dvd : 512 ∣ k0_mult7.toNat
  k0_mult8_dvd : 512 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S131072x16.size a
  hwx0_0 : ∀ i : grid0.Coords, EltTy.bits .i32 = 32 ∨ (Rect.block (s := S131072x16) S4096x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)

variable [Facts₀]

abbrev win0_0 : Pipeline.Window sig grid0 :=
  Pipeline.Window.ofSpec (Memref.whole main_v0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1024x16 : Shape := ⟨3, ![128, 1024, 16]⟩
abbrev S_ : Shape := ⟨0, ![]⟩
abbrev S131072x16 : Shape := ⟨2, ![131072, 16]⟩
abbrev S131072 : Shape := ⟨1, ![131072]⟩
abbrev S131072x1 : Shape := ⟨2, ![131072, 1]⟩
abbrev S131072x256 : Shape := ⟨2, ![131072, 256]⟩
abbrev S131072x16x1 : Shape := ⟨3, ![131072, 16, 1]⟩
abbrev S131072x16x2 : Shape := ⟨3, ![131072, 16, 2]⟩
abbrev S128x1024x256 : Shape := ⟨3, ![128, 1024, 256]⟩

abbrev nBuf : Space → Nat
  | .hbm => 31
  | .vmem => 0
  | .smem => 0
  | _ => 0

abbrev bufTy : (tb : Table) → Fin (tcTables nBuf tb) → BufTy
  | .hbm, ⟨0, _⟩ => ⟨S128x1024x16, .i32⟩
  | .hbm, ⟨1, _⟩ => ⟨S_, .i32⟩
  | .hbm, ⟨2, _⟩ => ⟨S128x1024x16, .i32⟩
  | .hbm, ⟨3, _⟩ => ⟨S128x1024x16, .i1⟩
  | .hbm, ⟨4, _⟩ => ⟨S128x1024x16, .f32⟩
  | .hbm, ⟨5, _⟩ => ⟨S131072x16, .i32⟩
  | .hbm, ⟨6, _⟩ => ⟨S131072x16, .f32⟩
  | .hbm, ⟨7, _⟩ => ⟨S131072, .i32⟩
  | .hbm, ⟨8, _⟩ => ⟨S131072x1, .i32⟩
  | .hbm, ⟨9, _⟩ => ⟨S_, .f32⟩
  | .hbm, ⟨10, _⟩ => ⟨S131072x256, .f32⟩
  | .hbm, ⟨11, _⟩ => ⟨S_, .i32⟩
  | .hbm, ⟨12, _⟩ => ⟨S131072x1, .i32⟩
  | .hbm, ⟨13, _⟩ => ⟨S131072x1, .i1⟩
  | .hbm, ⟨14, _⟩ => ⟨S_, .i32⟩
  | .hbm, ⟨15, _⟩ => ⟨S131072x1, .i32⟩
  | .hbm, ⟨16, _⟩ => ⟨S131072x1, .i32⟩
  | .hbm, ⟨17, _⟩ => ⟨S131072x1, .i32⟩
  | .hbm, ⟨18, _⟩ => ⟨S_, .i32⟩
  | .hbm, ⟨19, _⟩ => ⟨S131072x16, .i32⟩
  | .hbm, ⟨20, _⟩ => ⟨S131072x16, .i1⟩
  | .hbm, ⟨21, _⟩ => ⟨S_, .i32⟩
  | .hbm, ⟨22, _⟩ => ⟨S131072x16, .i32⟩
  | .hbm, ⟨23, _⟩ => ⟨S131072x16, .i32⟩
  | .hbm, ⟨24, _⟩ => ⟨S131072x16, .i32⟩
  | .hbm, ⟨25, _⟩ => ⟨S131072x16, .i32⟩
  | .hbm, ⟨26, _⟩ => ⟨S131072x16x1, .i32⟩
  | .hbm, ⟨27, _⟩ => ⟨S131072x16x1, .i32⟩
  | .hbm, ⟨28, _⟩ => ⟨S131072x16x2, .i32⟩
  | .hbm, ⟨29, _⟩ => ⟨S131072x256, .f32⟩
  | .hbm, ⟨30, _⟩ => ⟨S128x1024x256, .f32⟩
  | _, _ => ⟨S128x1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S_S128x1024x16 : S_.BroadcastsInDim S128x1024x16 (![] : Fin 0 → Fin S128x1024x16.rank)
  shapeCasts_S128x1024x16_S131072x16 : S128x1024x16.ShapeCasts S131072x16
  bcast_S131072_S131072x1_0 : S131072.BroadcastsInDim S131072x1 (![0] : Fin 1 → Fin S131072x1.rank)
  bcast_S_S131072x256 : S_.BroadcastsInDim S131072x256 (![] : Fin 0 → Fin S131072x256.rank)
  bcast_S_S131072x1 : S_.BroadcastsInDim S131072x1 (![] : Fin 0 → Fin S131072x1.rank)
  bcast_S_S131072x16 : S_.BroadcastsInDim S131072x16 (![] : Fin 0 → Fin S131072x16.rank)
  bcast_S131072x1_S131072x16_0_1 : S131072x1.BroadcastsInDim S131072x16 (![0, 1] : Fin 2 → Fin S131072x16.rank)
  bcast_S131072x16_S131072x16x1_0_1 : S131072x16.BroadcastsInDim S131072x16x1 (![0, 1] : Fin 2 → Fin S131072x16x1.rank)
  concatenates_S131072x16x1_S131072x16x1_S131072x16x2_d2 : Shape.Concatenates [S131072x16x1, S131072x16x1] S131072x16x2 2
  shapeCasts_S131072x256_S128x1024x256 : S131072x256.ShapeCasts S128x1024x256
  scatter_S131072x256_S131072x16x2_S131072x16_n_01_01_2_wf : ScatterDims.WF S131072x256 S131072x16x2 S131072x16 [] [0, 1] [0, 1] 2

variable [Facts₀]

def scatter_S131072x256_S131072x16x2_S131072x16_n_01_01_2 : ScatterDims S131072x256 S131072x16x2 S131072x16 where
  updateWindowDims := []
  insertedWindowDims := [0, 1]
  scatterDimsToOperandDims := [0, 1]
  indexVectorDim := 2
  wf := scatter_S131072x256_S131072x16x2_S131072x16_n_01_01_2_wf

class Facts : Prop extends Facts₀ where

variable [Facts]
-- ==== Proof.Spec.lean ====
/-
  WHAT BOTH PROGRAMS COMPUTE. For every word (a row `r` of the 131072 × 16 token table) and every bin `q` of 256: the number of the
  row's sixteen tokens whose value, read as a signed integer, is `q` — except that bin 0, the padding id, is left at zero. The count
  is a sum of sixteen zero-or-one terms on the extended reals. Also here: a sum over sixteen indices written out as the chain of
  additions a body that unrolls its token loop performs, left to right.
-/
import Idealize.ShloMosaic.PureOps.Ideal
import Idealize.ShloMosaic.Lib.ValueIdx
import Mathlib.Algebra.BigOperators.Fin

noncomputable section

namespace Cert.Hist

open Idealize.ShloMosaic Idealize.ShloMosaic.ValueIdx

/-- The histogram of one row of sixteen tokens at bin `q`: bin 0 is empty; any other bin counts the tokens equal to it. -/
def binCount (row : Fin 16 → BitVec 32) (q : Fin 256) : EReal :=
  if q.val = 0 then 0 else ∑ l : Fin 16, if (row l).toInt = (q.val : Int) then (1 : EReal) else 0

/-- The histogram table of a 131072 × 16 token table: entry `(r, q)` is row `r`'s count at bin `q`. -/
def table (tok : (⟨2, ![131072, 16]⟩ : Shape).Idx → BitVec 32) : (⟨2, ![131072, 256]⟩ : Shape).Idx → EReal :=
  fun i => binCount (fun l => tok (ix2 (i 0) l)) (i 1)

/-- A sum over sixteen indices is the left-to-right chain of its sixteen terms. -/
theorem sum16 {α : Type} [AddCommMonoid α] (f : Fin 16 → α) :
    ∑ l : Fin 16, f l
      = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

end Cert.Hist

end
-- ==== Proof.Chunk.lean ====
/-
  ONE CHUNK OF THE KERNEL BODY. The body walks its block of 4096 rows in eight chunks of 512; for each it converts the chunk's tokens
  to bf16 (exact at the ideal instance: the signed integer itself), compares each of the sixteen token columns against the lane iota
  0 … 255 (also converted exactly), adds the sixteen zero-or-one results left to right, replaces lane 0 by zero and widens. So entry
  `(p, q)` of what a chunk stores is row `p`'s histogram at bin `q`, bin 0 left empty.
-/
import proofs.«414719_j17334488007265_3_alg».proof.Proof.Gen.KernelIdeal.Skeleton
import proofs.«414719_j17334488007265_3_alg».proof.Proof.Spec
import Idealize.ShloMosaic.Lib.Pipeline.Value

noncomputable section

namespace Cert.Hist.Kernel

open Idealize.ShloMosaic Idealize.ShloMosaic.ValueIdx Cert.KernelIdeal Cert.KernelIdeal.Gen

variable {F : FTy → Type} [FloatOps F]

/-- The lane iota of a 512 × 256 chunk (entry `(p, q)` is the word `q`), as the bf16 value the compares are made against. -/
def lanes : FVec F S512x256 .bf16 := sitofp .bf16 (iota .tc S512x256 32 [1] iota_S512x256_d1_w32)

/-- Which lanes are kept: every bin but bin 0. -/
def keep : IVec S512x256 1 := cmpi .ne (iota .tc S512x256 32 [1] iota_S512x256_d1_w32) (broadcast S512x256 0#32)

/-- The tokens of a chunk of 512 rows as bf16 values. -/
def tokF (x : Vec F S512x16 .i32) : FVec F S512x16 .bf16 := sitofp .bf16 (shapeCast S512x16 x shapeCasts_S512x16_S512x16)

/-- One token column compared against every lane: one where the row's token at that column equals the lane's bin, else zero. -/
def hit (t : FVec F S512x16 .bf16) (off : Fin 2 → Nat) (h : S512x16.Slices off S512x1) : FVec F S512x256 .bf16 :=
  truncf .bf16 (sitofp .f32 (extui 32 (cmpf .oeq (broadcastTo S512x256 (extractStridedSlice S512x1 off t h) broadcasts_S512x1_S512x256) (lanes (F := F))) natLt_1_32)) bitsLt_bf16_f32

/-- What the body stores for one chunk of 512 rows, as a function of the chunk's tokens: the sixteen columns' hits added left to
    right, bin 0 replaced by zero, widened to f32. -/
def chunk (x : Vec F S512x16 .i32) : FVec F S512x256 .f32 :=
  extf .f32 (select (keep) (addf (addf (addf (addf (addf (addf (addf (addf (addf (addf (addf (addf (addf (addf (addf
    (hit (tokF x) ![0, 0] slices_S512x16_o0_0_S512x1) (hit (tokF x) ![0, 1] slices_S512x16_o0_1_S512x1))
    (hit (tokF x) ![0, 2] slices_S512x16_o0_2_S512x1)) (hit (tokF x) ![0, 3] slices_S512x16_o0_3_S512x1))
    (hit (tokF x) ![0, 4] slices_S512x16_o0_4_S512x1)) (hit (tokF x) ![0, 5] slices_S512x16_o0_5_S512x1))
    (hit (tokF x) ![0, 6] slices_S512x16_o0_6_S512x1)) (hit (tokF x) ![0, 7] slices_S512x16_o0_7_S512x1))
    (hit (tokF x) ![0, 8] slices_S512x16_o0_8_S512x1)) (hit (tokF x) ![0, 9] slices_S512x16_o0_9_S512x1))
    (hit (tokF x) ![0, 10] slices_S512x16_o0_10_S512x1)) (hit (tokF x) ![0, 11] slices_S512x16_o0_11_S512x1))
    (hit (tokF x) ![0, 12] slices_S512x16_o0_12_S512x1)) (hit (tokF x) ![0, 13] slices_S512x16_o0_13_S512x1))
    (hit (tokF x) ![0, 14] slices_S512x16_o0_14_S512x1)) (hit (tokF x) ![0, 15] slices_S512x16_o0_15_S512x1))
    (broadcast S512x256 (Scalar.sitofp .bf16 0#32))) bitsLt_bf16_f32

/-! ## The chunk at the ideal instance, entry by entry -/

/-- A word below 256 read signed is the number itself. -/
theorem toInt_ofNat_lt (n : Nat) (h : n < 256) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split
  · rfl
  · rename_i hc; exfalso; apply hc; omega

/-- The lane iota's word at `(p, q)` is `q`. -/
theorem iota_apply (p : Fin 512) (q : Fin 256) :
    iota .tc S512x256 32 [1] iota_S512x256_d1_w32 (ix2 p q) = BitVec.ofNat 32 q.val := by
  show BitVec.ofNat 32 (0 * 256 + q.val) = _
  rw [Nat.zero_mul, Nat.zero_add]

/-- The lane value at `(p, q)` is the real number `q`. -/
theorem lanes_apply (p : Fin 512) (q : Fin 256) : lanes (F := Ideal) (ix2 p q) = ((q.val : ℝ) : EReal) := by
  show (((iota .tc S512x256 32 [1] iota_S512x256_d1_w32 (ix2 p q)).toInt : ℝ) : EReal) = _
  rw [iota_apply, toInt_ofNat_lt _ q.isLt, Int.cast_natCast]

/-- A select on the kept lanes: bin 0 takes the second value, every other bin the first. -/
theorem select_keep {α : Type} (p : Fin 512) (q : Fin 256) (a b : α) :
    Scalar.select (keep (ix2 p q)) a b = if q.val = 0 then b else a := by
  show Scalar.select (IntOp.cmpi .ne (iota .tc S512x256 32 [1] iota_S512x256_d1_w32 (ix2 p q)) 0#32) a b = _
  rw [iota_apply]
  by_cases hq : q.val = 0
  · rw [if_pos hq, hq]; rfl
  · rw [if_neg hq]
    have hne : BitVec.ofNat 32 q.val ≠ 0#32 := by
      intro h0
      have := congrArg BitVec.toInt h0
      rw [toInt_ofNat_lt _ q.isLt] at this
      have h00 : (0#32).toInt = 0 := by decide
      omega
    show (if BitVec.ofBool (BitVec.ofNat 32 q.val != 0#32) = 1 then a else b) = a
    rw [bne_iff_ne.mpr hne]; rfl

/-- A token of the chunk as a bf16 value is its signed integer, exactly. -/
theorem tokF_apply (x : Vec Ideal S512x16 .i32) (p : Fin 512) (l : Fin 16) :
    tokF (F := Ideal) x (ix2 p l) = (((x (ix2 p l)).toInt : ℝ) : EReal) := by
  unfold tokF
  rw [shapeCast_self]
  rfl

/-- The zero-or-one value of a compare, widened and converted: one when the two sides are equal. -/
theorem hit_scalar (a b : EReal) :
    (FloatOps.sitofp (F := Ideal) .f32 ((FloatOps.cmpf (F := Ideal) (φ := .bf16) .oeq a b).setWidth 32) : EReal)
      = if a = b then 1 else 0 := by
  show ((((BitVec.ofBool (decide (a = b))).setWidth 32).toInt : ℝ) : EReal) = _
  by_cases h : a = b
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

/-- Column `l` of the chunk's tokens compared against the lanes, at `(p, q)`: one when row `p`'s token at column `l` is the lane's value. -/
theorem hit_apply (t : FVec Ideal S512x16 .bf16) (off : Fin 2 → Nat) (h : S512x16.Slices off S512x1) (l : Fin 16)
    (hoff : off = ![0, l.val]) (p : Fin 512) (q : Fin 256) :
    hit t off h (ix2 p q) = if t (ix2 p l) = lanes (F := Ideal) (ix2 p q) then (1 : EReal) else 0 := by
  subst hoff
  have e : broadcastTo S512x256 (extractStridedSlice S512x1 ![0, l.val] t h) broadcasts_S512x1_S512x256 (ix2 p q) = t (ix2 p l) := by
    refine (broadcastTo_apply _ _ (ix2 p q) (ix2 p (0 : Fin 1)) ?_).trans
      (extractStridedSlice_apply _ _ _ (ix2 p (0 : Fin 1)) (ix2 p l) ?_)
    · intro a
      match a with
      | ⟨0, _⟩ => rfl
      | ⟨1, _⟩ => rfl
    · intro a
      match a with
      | ⟨0, _⟩ => show p.val = 0 + p.val; omega
      | ⟨1, _⟩ => show l.val = l.val + 0; omega
  refine Eq.trans ?_ (hit_scalar (t (ix2 p l)) (lanes (F := Ideal) (ix2 p q)))
  show (FloatOps.sitofp (F := Ideal) .f32 ((FloatOps.cmpf (F := Ideal) (φ := .bf16) .oeq
    (broadcastTo S512x256 (extractStridedSlice S512x1 ![0, l.val] t h) broadcasts_S512x1_S512x256 (ix2 p q))
    (lanes (F := Ideal) (ix2 p q))).setWidth 32) : EReal) = _
  rw [e]

/-- Row `p`'s token at column `l` equals lane `q`'s value exactly when the token, read signed, is `q`. -/
theorem tok_eq_lane_iff (x : Vec Ideal S512x16 .i32) (p : Fin 512) (l : Fin 16) (q : Fin 256) :
    tokF (F := Ideal) x (ix2 p l) = lanes (F := Ideal) (ix2 p q) ↔ (x (ix2 p l)).toInt = (q.val : Int) := by
  rw [tokF_apply, lanes_apply, EReal.coe_eq_coe_iff, ← Int.cast_natCast, Int.cast_inj]

/-- The zero that replaces bin 0. -/
theorem zero_lane (p : Fin 512) (q : Fin 256) :
    broadcast S512x256 (Scalar.sitofp (F := Ideal) .bf16 0#32) (ix2 p q) = (0 : EReal) := by
  show (((0#32 : BitVec 32).toInt : ℝ) : EReal) = 0
  have : (0#32 : BitVec 32).toInt = 0 := by decide
  rw [this]; simp

/-- THE CHUNK, ENTRY BY ENTRY: what a chunk stores at `(p, q)` is the histogram of row `p`'s sixteen tokens at bin `q`. -/
theorem chunk_apply (x : Vec Ideal S512x16 .i32) (p : Fin 512) (q : Fin 256) :
    chunk (F := Ideal) x (ix2 p q) = Cert.Hist.binCount (fun l => x (ix2 p l)) q := by
  unfold chunk Cert.Hist.binCount
  rw [extf_apply, select_apply, select_keep, zero_lane, Cert.Hist.sum16]
  simp only [addf_apply]
  rw [hit_apply (tokF x) ![0, 0] slices_S512x16_o0_0_S512x1 (0 : Fin 16) rfl p q,
    hit_apply (tokF x) ![0, 1] slices_S512x16_o0_1_S512x1 (1 : Fin 16) rfl p q,
    hit_apply (tokF x) ![0, 2] slices_S512x16_o0_2_S512x1 (2 : Fin 16) rfl p q,
    hit_apply (tokF x) ![0, 3] slices_S512x16_o0_3_S512x1 (3 : Fin 16) rfl p q,
    hit_apply (tokF x) ![0, 4] slices_S512x16_o0_4_S512x1 (4 : Fin 16) rfl p q,
    hit_apply (tokF x) ![0, 5] slices_S512x16_o0_5_S512x1 (5 : Fin 16) rfl p q,
    hit_apply (tokF x) ![0, 6] slices_S512x16_o0_6_S512x1 (6 : Fin 16) rfl p q,
    hit_apply (tokF x) ![0, 7] slices_S512x16_o0_7_S512x1 (7 : Fin 16) rfl p q,
    hit_apply (tokF x) ![0, 8] slices_S512x16_o0_8_S512x1 (8 : Fin 16) rfl p q,
    hit_apply (tokF x) ![0, 9] slices_S512x16_o0_9_S512x1 (9 : Fin 16) rfl p q,
    hit_apply (tokF x) ![0, 10] slices_S512x16_o0_10_S512x1 (10 : Fin 16) rfl p q,
    hit_apply (tokF x) ![0, 11] slices_S512x16_o0_11_S512x1 (11 : Fin 16) rfl p q,
    hit_apply (tokF x) ![0, 12] slices_S512x16_o0_12_S512x1 (12 : Fin 16) rfl p q,
    hit_apply (tokF x) ![0, 13] slices_S512x16_o0_13_S512x1 (13 : Fin 16) rfl p q,
    hit_apply (tokF x) ![0, 14] slices_S512x16_o0_14_S512x1 (14 : Fin 16) rfl p q,
    hit_apply (tokF x) ![0, 15] slices_S512x16_o0_15_S512x1 (15 : Fin 16) rfl p q]
  simp only [tok_eq_lane_iff]

end Cert.Hist.Kernel
end
-- ==== Proof.Block.lean ====
/-
  ONE BLOCK OF THE KERNEL. At a grid point the body reads its block of 4096 rows of tokens chunk by chunk and stores each chunk's
  histograms at the same rows of the output block; the eight stores tile the output block, so it ends at the histogram table of the
  block's tokens.
-/
import proofs.«414719_j17334488007265_3_alg».proof.Proof.Gen.KernelIdeal.Frame
import proofs.«414719_j17334488007265_3_alg».proof.Proof.Chunk
import Idealize.ShloMosaic.Lib.Pipeline.Value

set_option maxRecDepth 16384

noncomputable section

namespace Cert.Hist.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The histogram table of one block of 4096 rows: entry `(r, q)` is the histogram of row `r`'s sixteen tokens at bin `q`. -/
def blockTable (x0 : Vec Ideal S4096x16 .i32) : S4096x256.Idx → EReal :=
  fun y => Cert.Hist.binCount (fun l => x0 (ix2 (y 0) l)) (y 1)

/-- The chunk computed from rows `o … o + 511` of the block's tokens and stored at the same rows of the output block is that part of
    the block's table: local entry `(p, q)` is the table's entry `(o + p, q)`. -/
theorem chunk_agrees (x0 : Vec Ideal S4096x16 .i32) (o : Nat)
    (inbI : ∀ a, (![o, 0] : Fin 2 → Nat) a + S512x16.size a ≤ S4096x16.size a)
    (inbO : ∀ a, (![o, 0] : Fin 2 → Nat) a + (![512, 256] : Fin 2 → Nat) a ≤ S4096x256.size a)
    (xx : S512x256.Idx) :
    chunk (F := Ideal) (View.ld x0 (Rect.unit ![o, 0] S512x16.size inbI)) xx
      = blockTable x0 ((Rect.unit (s := S4096x256) ![o, 0] ![512, 256] inbO).emb xx) := by
  obtain ⟨p, q, rfl⟩ : ∃ (p : Fin 512) (q : Fin 256), xx = ix2 p q := ⟨xx 0, xx 1, eq_ix2 xx⟩
  rw [chunk_apply]
  unfold blockTable
  have h1 : ((Rect.unit (s := S4096x256) ![o, 0] ![512, 256] inbO).emb (ix2 p q)) 1 = q :=
    Fin.ext (by show 0 + 1 * q.val = q.val; omega)
  have h0 : ∀ l : Fin 16, View.ld x0 (Rect.unit ![o, 0] S512x16.size inbI) (ix2 p l)
      = x0 (ix2 ((Rect.unit (s := S4096x256) ![o, 0] ![512, 256] inbO).emb (ix2 p q) 0) l) := by
    intro l
    show x0 _ = x0 _
    refine congrArg x0 (funext fun a => Fin.ext ?_)
    match a with
    | ⟨0, _⟩ => rfl
    | ⟨1, _⟩ => show 0 + 1 * l.val = l.val; omega
  rw [h1]
  congr 1
  funext l
  exact h0 l

/-- WHAT THE BODY LEAVES IN ITS OUTPUT BLOCK: the eight chunks' stores tile the block, and each stores its part of the block's
    histogram table, so the block ends at the table of the block's tokens. -/
theorem out_eq (c : Dev nD) (i : grid0.Coords) (arg1 : Memref sig .tc .vmem S4096x16 .i32) (harg1 : arg1.IsWhole)
    (arg2 : Memref sig .tc .vmem S4096x256 .f32) (harg2 : arg2.IsWhole) (x0 : Vec Ideal S4096x16 .i32) :
    out0_A_1 (F := Ideal) c i arg1 harg1 arg2 harg2 x0 = blockTable x0 := by
  funext y
  unfold out0_A_1
  rw [View.read_writes_eq_canon _ _ _ (cover0_A_1 c i arg1 harg1 arg2 harg2 x0)]
  refine View.canon_apply_of_pieces (blockTable x0) _ ?_ y (cover0_A_1 c i arg1 harg1 arg2 harg2 x0 y)
  unfold kernelRun0_A
  dsimp only
  sl_unfold_words
  intro pc hpc xx
  simp only [List.mem_cons, List.mem_nil_iff, or_false] at hpc
  rcases hpc with rfl | rfl | rfl | rfl | rfl | rfl | rfl | rfl
  · simp only [View.readAt_eq_ld, harg1.read_unread]
    exact chunk_agrees x0 3584 _ _ xx
  · simp only [View.readAt_eq_ld, harg1.read_unread]
    exact chunk_agrees x0 3072 _ _ xx
  · simp only [View.readAt_eq_ld, harg1.read_unread]
    exact chunk_agrees x0 2560 _ _ xx
  · simp only [View.readAt_eq_ld, harg1.read_unread]
    exact chunk_agrees x0 2048 _ _ xx
  · simp only [View.readAt_eq_ld, harg1.read_unread]
    exact chunk_agrees x0 1536 _ _ xx
  · simp only [View.readAt_eq_ld, harg1.read_unread]
    exact chunk_agrees x0 1024 _ _ xx
  · simp only [View.readAt_eq_ld, harg1.read_unread]
    exact chunk_agrees x0 512 _ _ xx
  · simp only [View.readAt_eq_ld, harg1.read_unread]
    exact chunk_agrees x0 0 _ _ xx

end Cert.Hist.Kernel
end
-- ==== Proof.KernelTable.lean ====
/-
  THE KERNEL'S TABLE. The grid's 32 points each take one block of 4096 rows of the flattened tokens and write back the block's
  histogram table at the same rows; the blocks tile the 131072 × 256 output, so after the region it holds the histogram table of the
  flattened tokens, and the program's result is that table reshaped.
-/
import proofs.«414719_j17334488007265_3_alg».proof.Proof.Gen.KernelIdeal.Frame
import proofs.«414719_j17334488007265_3_alg».proof.Proof.Block
import Idealize.ShloMosaic.Lib.Pipeline.Value
import Idealize.ShloMosaic.Lib.StableHlo.Run

set_option maxRecDepth 16384

noncomputable section

namespace Cert.Hist.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The printed index maps, decided over the grid: at point `t` both windows are on block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block's table is the part of the whole table its rows name: if entry `j` of the block sits at entry `i` of the table (same
    column) and the block's row of tokens is the table's row of tokens, the two histograms are one. -/
theorem table_block (X : S131072x16.Idx → BitVec 32) (B : Vec Ideal S4096x16 .i32) (j : S4096x256.Idx) (i : S131072x256.Idx)
    (hi1 : i 1 = j 1) (hB : ∀ l : Fin 16, B (ix2 (j 0) l) = X (ix2 (i 0) l)) :
    blockTable B j = Cert.Hist.table X i := by
  unfold blockTable Cert.Hist.table
  rw [hi1]
  congr 1
  funext l
  exact hB l

/-- WHAT POINT `t` WRITES BACK is block `t` of the histogram table of the flattened tokens as the region finds them. -/
theorem flushed_eq (c : Dev nD) (t : Fin cfg0.N) :
    (dats m 0 c).flushed 1 t = ((cfg0.win 1).blk t).view.read (Elt Ideal) (Cert.Hist.table (V m c main_v0)) := by
  show (cfg0.win 1).cut (grid0.coords t) ((dats m 0 c).after 1 t) = _
  rw [after0_1]
  unfold outsAt0
  rw [out_eq]
  obtain ⟨e0, e1, e2, e3⟩ := idx_facts t
  funext j
  show blockTable (iblk m c 0 t) j = Cert.Hist.table (V m c main_v0) (((cfg0.win 1).blk t).view.emb j)
  refine table_block (V m c main_v0) (iblk m c 0 t) j _ ?_ ?_
  · apply Fin.ext
    show win0_1.index t (1 : Fin 2) * 256 + 1 * (j 1).val = (j 1).val
    rw [e3]; omega
  · intro l
    show V m c main_v0 (((cfg0.win 0).blk t).view.emb (ix2 (j 0) l)) = V m c main_v0 _
    refine congrArg (V m c main_v0) (funext fun a => Fin.ext ?_)
    match a with
    | ⟨0, _⟩ =>
      show win0_0.index t (0 : Fin 2) * 4096 + 1 * (j 0).val = win0_1.index t (0 : Fin 2) * 4096 + 1 * (j 0).val
      rw [e0, e2]
    | ⟨1, _⟩ =>
      show win0_0.index t (1 : Fin 2) * 16 + 1 * l.val = l.val
      rw [e1]; omega

/-- An index of the table is in point `t`'s block iff each coordinate is in the block's range on its axis. -/
theorem mem_blk (t : Fin cfg0.N) (i : S131072x256.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v1).slice (win0_1.rect t)).set ↔ _
  rw [View.set_slice_whole, Rect.mem_set_unit]
  exact Iff.rfl

/-- Every entry of the table is in some point's block: row `r` is in the block of point `r / 4096`. -/
theorem cover (i : S131072x256.Idx) :
    ∃ t : Fin cfg0.N, (cfg0.win 1).flush t = true ∧ i ∈ ((cfg0.win 1).blk t).view.set := by
  have hi0 : (i 0).val < 131072 := (i 0).isLt
  have hi1 : (i 1).val < 256 := (i 1).isLt
  have hN : (i 0).val / 4096 < cfg0.N := by
    show (i 0).val / 4096 < grid0.N
    rw [N_0]; omega
  refine ⟨⟨(i 0).val / 4096, hN⟩, flush0_1 _, ?_⟩
  rw [mem_blk]
  obtain ⟨e0, e1, e2, e3⟩ := idx_facts ⟨(i 0).val / 4096, hN⟩
  intro a
  match a with
  | ⟨0, _⟩ =>
    show win0_1.index ⟨(i 0).val / 4096, hN⟩ (0 : Fin 2) * 4096 ≤ (i 0).val
      ∧ (i 0).val < win0_1.index ⟨(i 0).val / 4096, hN⟩ (0 : Fin 2) * 4096 + 4096
    rw [e2]
    show (i 0).val / 4096 * 4096 ≤ (i 0).val ∧ (i 0).val < (i 0).val / 4096 * 4096 + 4096
    omega
  | ⟨1, _⟩ =>
    show win0_1.index ⟨(i 0).val / 4096, hN⟩ (1 : Fin 2) * 256 ≤ (i 1).val
      ∧ (i 1).val < win0_1.index ⟨(i 0).val / 4096, hN⟩ (1 : Fin 2) * 256 + 256
    rw [e3]; omega

/-- THE OUTPUT ARRAY after the region: the histogram table of the flattened tokens. -/
theorem final (c : Dev nD) : (dats m 0 c).arrAt 1 cfg0.N = Cert.Hist.table (V m c main_v0) :=
  (dats m 0 c).arrAt_eq_of_cover 1 _ (fun t _ => flushed_eq m c t) cover

/-- The region finds the flattened tokens: the reshape of the argument. -/
theorem V_main_v0 (c : Dev nD) :
    (V m c main_v0 : S131072x16.Idx → BitVec 32)
      = shapeCast S131072x16 (m ((c : Thread nD τ).loc main_arg0)) shapeCasts_S128x1024x16_S131072x16 := by
  show StableHlo.after hostOps0 (fun b => m (c, b)) (Proc.devRef .tc main_v0) = _
  after_results
  rfl

/-- The program's result: the table reshaped to 128 × 1024 × 256. -/
theorem tail_eq (c : Dev nD) :
    Pipeline.afterTail₀ cfgs (dats m) 0 (V0 m) [hostOps1] c main_v2
      = shapeCast S128x1024x256 (Cert.Hist.table (shapeCast S131072x16 (m ((c : Thread nD τ).loc main_arg0))
          shapeCasts_S128x1024x16_S131072x16)) shapeCasts_S131072x256_S128x1024x256 := by
  unfold Pipeline.afterTail₀
  show StableHlo.after hostOps1 _ (Proc.devRef .tc main_v2) = _
  after_results
  rw [(Pipeline.withArrays_arr spec0 launch0.win.arr_inj c _ _ 1).trans (final m c), V_main_v0]
  rfl

/-- THE KERNEL'S RUN, READ: every weakly fair execution terminates with the result at the reshaped histogram table of the
    flattened argument, the argument unchanged. -/
theorem run : θ_run defs (onTc (τ := τ) (main (F := Ideal))) ⟨m, fun _ => 0, ρ⟩ fun r => ∀ c : Dev nD,
      r.2.mem ((c.tc : Thread nD τ).loc main_v2)
        = shapeCast S128x1024x256 (Cert.Hist.table (shapeCast S131072x16 (m ((c : Thread nD τ).loc main_arg0))
            shapeCasts_S128x1024x16_S131072x16)) shapeCasts_S131072x256_S128x1024x256
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.Hist.Kernel
end
-- ==== Proof.LibScatterPoint.lean ====
/-
  WHERE A POINT SCATTER LANDS. A scatter into a table of two axes whose start indices are an [n × L × 2] array — one PAIR of integers
  per update, the index vector on the last axis, both axes of the table scattered (both inserted: the updates have no window axis) —
  sends update `(p, l)` to table entry `(c, k)` exactly when its two start indices, read as SIGNED integers and NOT clamped, are `c`
  and `k` (a pair outside the table lands nowhere). Stated for any such dimension numbers (the printed fields, each by `rfl`), any
  sizes, any index width.
-/
import Idealize.ShloMosaic.PureOps.ShapeOps
import Idealize.ShloMosaic.Lib.ValueIdx

namespace Cert.LibScatterPoint

open Idealize.ShloMosaic Idealize.ShloMosaic.ValueIdx

/-- Two equal lists read at equal positions give equal elements. -/
private theorem getElem_congr {α : Type} (l l' : List α) (h : l = l') (i j : Nat) (hij : i = j) (hi : i < l.length)
    (hj : j < l'.length) : l[i] = l'[j] := by
  subst h; subst hij; rfl

/-- A scatter of scalars into a table of two axes, both scattered: update `(p, l)` lands on `(c, k)` exactly when its two start
    indices read signed are `c` and `k`. -/
theorem resultIdx?_point {N C n L w : Nat} (d : ScatterDims ⟨2, ![N, C]⟩ ⟨3, ![n, L, 2]⟩ ⟨2, ![n, L]⟩)
    (huw : d.updateWindowDims = []) (hins : d.insertedWindowDims = [0, 1]) (hsd : d.scatterDimsToOperandDims = [0, 1])
    (hiv : d.indexVectorDim = 2) (idx : IVec ⟨3, ![n, L, 2]⟩ w) (p : Fin n) (l : Fin L) (c : Fin N) (k : Fin C) :
    d.resultIdx? (ix2 p l) idx = some (ix2 c k) ↔
      (idx (ix3 p l (0 : Fin 2))).toInt = (c.val : Int) ∧ (idx (ix3 p l (1 : Fin 2))).toInt = (k.val : Int) := by
  have hm0 : (0 : Fin 2) ∈ d.scatterDimsToOperandDims := by rw [hsd]; simp
  have hm1 : (1 : Fin 2) ∈ d.scatterDimsToOperandDims := by rw [hsd]; simp
  -- no axis of the table is kept: both are inserted
  have hk0 : (0 : Fin 2) ∉ d.sKept := by simp [ScatterDims.sKept, Shape.kept, hins]
  have hk1 : (1 : Fin 2) ∉ d.sKept := by simp [ScatterDims.sKept, Shape.kept, hins]
  have hwin0 : d.window (ix2 p l) 0 = 0 := by unfold ScatterDims.window; rw [dif_neg hk0]
  have hwin1 : d.window (ix2 p l) 1 = 0 := by unfold ScatterDims.window; rw [dif_neg hk1]
  -- the update's scatter axes are both its axes, in order; the index array's axes but the last likewise
  have hu : d.uScatter = [0, 1] := by
    show (List.finRange 2).filter (fun a => decide (a ∉ d.updateWindowDims)) = _
    rw [huw]; rfl
  have hs : d.siKept = [0, 1] := by
    show (List.finRange 3).filter (fun a => decide (a.val ≠ d.indexVectorDim)) = _
    rw [hiv]; rfl
  have hX0 : ∀ (h : d.siKept.idxOf (0 : Fin 3) < d.uScatter.length), d.uScatter[d.siKept.idxOf (0 : Fin 3)]'h = (0 : Fin 2) :=
    fun h => getElem_congr _ _ hu _ 0 (by rw [hs]; rfl) h (by simp)
  have hX1 : ∀ (h : d.siKept.idxOf (1 : Fin 3) < d.uScatter.length), d.uScatter[d.siKept.idxOf (1 : Fin 3)]'h = (1 : Fin 2) :=
    fun h => getElem_congr _ _ hu _ 1 (by rw [hs]; rfl) h (by simp)
  have e0 : ∀ X : Fin 2, X = 0 → ((ix2 p l : (⟨2, ![n, L]⟩ : Shape).Idx) X).val = p.val := fun X hX => by subst hX; rfl
  have e1 : ∀ X : Fin 2, X = 1 → ((ix2 p l : (⟨2, ![n, L]⟩ : Shape).Idx) X).val = l.val := fun X hX => by subst hX; rfl
  -- the index array is read at (p, l) (its first two axes follow the update's coordinates), at the component of the index vector
  have hsi : ∀ (t : Fin 2) (ht : t ∈ d.scatterDimsToOperandDims),
      d.siIdx (ix2 p l) ⟨List.idxOf t d.scatterDimsToOperandDims, List.idxOf_lt_length_iff.2 ht⟩ = ix3 p l t := by
    intro t ht
    funext b
    match b with
    | ⟨0, _⟩ =>
      unfold ScatterDims.siIdx
      rw [dif_neg (by rw [hiv]; simp)]
      unfold ScatterDims.siCoord
      apply Fin.ext
      simp only [Fin.val_cast]
      exact e0 _ (hX0 _)
    | ⟨1, _⟩ =>
      unfold ScatterDims.siIdx
      rw [dif_neg (by rw [hiv]; simp)]
      unfold ScatterDims.siCoord
      apply Fin.ext
      simp only [Fin.val_cast]
      exact e1 _ (hX1 _)
    | ⟨2, _⟩ =>
      unfold ScatterDims.siIdx
      rw [dif_pos (by rw [hiv])]
      apply Fin.ext
      show List.idxOf t d.scatterDimsToOperandDims = t.val
      rw [hsd]
      match t with
      | ⟨0, _⟩ => rfl
      | ⟨1, _⟩ => rfl
  have hstart0 : d.start (ix2 p l) idx 0 = (idx (ix3 p l 0)).toInt := by
    unfold ScatterDims.start; rw [dif_pos hm0, hsi 0 hm0]
  have hstart1 : d.start (ix2 p l) idx 1 = (idx (ix3 p l 1)).toInt := by
    unfold ScatterDims.start; rw [dif_pos hm1, hsi 1 hm1]
  -- each axis lands at its signed start index (window coordinate 0); the update is kept exactly when both are inside the table
  unfold ScatterDims.resultIdx?
  by_cases h : ∀ (a : Fin (⟨2, ![N, C]⟩ : Shape).rank),
      0 ≤ d.start (ix2 p l) idx a + (d.window (ix2 p l) a : Int) ∧
        d.start (ix2 p l) idx a + (d.window (ix2 p l) a : Int) < ((⟨2, ![N, C]⟩ : Shape).size a : Int)
  · rw [dif_pos h, Option.some.injEq]
    constructor
    · intro he
      have g0 := congrArg (fun f : (⟨2, ![N, C]⟩ : Shape).Idx => (f 0).val) he
      have g1 := congrArg (fun f : (⟨2, ![N, C]⟩ : Shape).Idx => (f 1).val) he
      have h0 := (h 0).1
      have h1 := (h 1).1
      simp only [hstart0, hwin0] at g0 h0
      simp only [hstart1, hwin1] at g1 h1
      change ((idx (ix3 p l 0)).toInt + ((0 : Nat) : Int)).toNat = c.val at g0
      change ((idx (ix3 p l 1)).toInt + ((0 : Nat) : Int)).toNat = k.val at g1
      refine ⟨?_, ?_⟩
      · show _ = (c.val : Int)
        omega
      · show _ = (k.val : Int)
        omega
    · rintro ⟨hz0, hz1⟩
      funext a
      match a with
      | ⟨0, _⟩ =>
        apply Fin.ext
        show (d.start (ix2 p l) idx 0 + (d.window (ix2 p l) 0 : Int)).toNat = c.val
        rw [hstart0, hwin0, hz0]; omega
      | ⟨1, _⟩ =>
        apply Fin.ext
        show (d.start (ix2 p l) idx 1 + (d.window (ix2 p l) 1 : Int)).toNat = k.val
        rw [hstart1, hwin1, hz1]; omega
  · rw [dif_neg h]
    constructor
    · intro he; exact absurd he (by simp)
    · rintro ⟨hz0, hz1⟩
      exfalso; apply h
      intro a
      have hc : c.val < N := c.isLt
      have hkC : k.val < C := k.isLt
      match a with
      | ⟨0, _⟩ =>
        show 0 ≤ d.start (ix2 p l) idx 0 + (d.window (ix2 p l) 0 : Int) ∧
          d.start (ix2 p l) idx 0 + (d.window (ix2 p l) 0 : Int) < (N : Int)
        rw [hstart0, hwin0, hz0]; omega
      | ⟨1, _⟩ =>
        show 0 ≤ d.start (ix2 p l) idx 1 + (d.window (ix2 p l) 1 : Int) ∧
          d.start (ix2 p l) idx 1 + (d.window (ix2 p l) 1 : Int) < (C : Int)
        rw [hstart1, hwin1, hz1]; omega

end Cert.LibScatterPoint
-- ==== Proof.RefTable.lean ====
/-
  THE REFERENCE'S TABLE. The reference scatters, for every token position `(r, l)`, the mask value (one unless the token is the padding
  id 0) into the zero table at row `r` (the row iota, never negative, so left alone by the wrap of negative indices) and column the
  token (a negative token would be wrapped by adding 256; a non-negative one is left alone). With every token non-negative the entry
  `(r, q)` therefore receives one unit from each position of row `r` whose token is `q` and is not the padding id: the row's
  histogram with bin 0 left empty.
-/
import proofs.«414719_j17334488007265_3_alg».proof.Proof.Gen.ReferenceIdeal.Read
import proofs.«414719_j17334488007265_3_alg».proof.Proof.Spec
import proofs.«414719_j17334488007265_3_alg».proof.Proof.LibScatterPoint
import Idealize.ShloMosaic.Lib.StableHlo.Predicate

noncomputable section

namespace Cert.Hist.Ref

open Cert.ReferenceIdeal Cert.ReferenceIdeal.Gen Idealize.ShloMosaic Idealize.ShloMosaic.ValueIdx

/-- The reference's scatter dimension numbers. -/
private abbrev dims := scatter_S131072x256_S131072x16x2_S131072x16_n_01_01_2

/-- The flattened position `(p, l)` reads the token array at one index; the tokens and the mask are read there alike. -/
private abbrev at3 (p : Fin 131072) (l : Fin 16) : S128x1024x16.Idx := Read.idx_main_v3 (ix2 p l)

/-- The zero table is zero everywhere. -/
private theorem zero_at (i : S131072x256.Idx) : Read.val_main_v7 (F := Ideal) i = 0 := by
  rw [Read.val_main_v7_apply, Read.val_main_cst_apply]
  show Ideal.ofBits .f32 0x00000000#32 = 0
  simp [Ideal.ofBits, Ideal.ieee]

/-- The flattened tokens at `(p, l)`. -/
private theorem tok_at (x : IVec S128x1024x16 32) (p : Fin 131072) (l : Fin 16) :
    Read.val_main_v3 (F := Ideal) x (ix2 p l) = x (at3 p l) := Read.val_main_v3_apply x (ix2 p l)

/-- The mask at `(p, l)`: zero on the padding id, one on every other token. -/
private theorem mask_at (x : IVec S128x1024x16 32) (p : Fin 131072) (l : Fin 16) :
    Read.val_main_v4 (F := Ideal) x (ix2 p l) = if x (at3 p l) = 0#32 then (0 : EReal) else 1 := by
  have e4 : Read.idx_main_v4 (ix2 p l) = at3 p l := by
    funext a; match a with | ⟨0, _⟩ => rfl | ⟨1, _⟩ => rfl | ⟨2, _⟩ => rfl
  rw [Read.val_main_v4_apply, e4, Read.val_main_v2_apply, Read.val_main_v1_apply, Read.val_main_v0_apply, Read.val_main_c_apply]
  show (((IntOp.cmpi .ne (x (at3 p l)) 0#32).toNat : ℝ) : EReal) = _
  by_cases h : x (at3 p l) = 0#32
  · rw [if_pos h, h]
    have e : IntOp.cmpi .ne (0#32 : BitVec 32) 0#32 = 0#1 := by decide
    rw [e]; simp
  · rw [if_neg h, IntOp.cmpi_ne.2 h]; simp

/-- The row component of the index pair of position `(p, l)` is the row `p`: the row counter is never negative, so the wrap of
    negative indices leaves it alone. -/
private theorem idx_row (x : IVec S128x1024x16 32) (p : Fin 131072) (l : Fin 16) :
    Read.val_main_v21 (F := Ideal) x (ix3 p l (0 : Fin 2)) = BitVec.ofNat 32 p.val := by
  unfold Read.val_main_v21
  rw [concatenate_pair_apply_left _ _ _ concatenates_S131072x16x1_S131072x16x1_S131072x16x2_d2 (ix3 p l (0 : Fin 2)) rfl
    (ix3 p l (0 : Fin 1)) (fun b => match b with | ⟨0, _⟩ => rfl | ⟨1, _⟩ => rfl | ⟨2, _⟩ => rfl)]
  simp only [Read.val_main_v19_apply, Read.val_main_v18_apply, Read.val_main_v12_apply, Read.val_main_v9_apply,
    Read.val_main_v11_apply, Read.val_main_v6_apply, Read.val_main_v8_apply, Read.val_main_v10_apply, Read.val_main_v5_apply,
    Read.val_main_c_0_apply, Read.val_main_c_1_apply]
  show Scalar.select (IntOp.cmpi .slt (BitVec.ofNat 32 p.val) 0#32) (IntOp.addi (BitVec.ofNat 32 p.val) 131072#32)
    (BitVec.ofNat 32 p.val) = BitVec.ofNat 32 p.val
  have hp : p.val < 2 ^ 31 := by have := p.isLt; omega
  have hc : ¬ IntOp.cmpi .slt (BitVec.ofNat 32 p.val) 0#32 = 1#1 := by
    rw [IntOp.cmpi_slt, StableHlo.Predicate.toInt_ofNat_small _ hp]
    have h0 : (0#32 : BitVec 32).toInt = 0 := by decide
    omega
  rw [eq_zero_of_ne_one hc]
  exact select_zero _ _

/-- The column component of the index pair of position `(p, l)` is the token there: a non-negative token is left alone by the wrap
    of negative indices. -/
private theorem idx_col (x : IVec S128x1024x16 32) (hx : ∀ i, 0 ≤ (x i).toInt) (p : Fin 131072) (l : Fin 16) :
    Read.val_main_v21 (F := Ideal) x (ix3 p l (1 : Fin 2)) = x (at3 p l) := by
  unfold Read.val_main_v21
  rw [concatenate_pair_apply_right _ _ _ concatenates_S131072x16x1_S131072x16x1_S131072x16x2_d2 (ix3 p l (1 : Fin 2)) rfl rfl
    (ix3 p l (0 : Fin 1))
    (fun b hb => match b, hb with
      | ⟨0, _⟩, _ => rfl
      | ⟨1, _⟩, _ => rfl
      | ⟨2, _⟩, hb => absurd rfl hb) rfl]
  have e20 : Read.idx_main_v20 (ix3 p l (0 : Fin 1)) = ix2 p l := by
    funext a; match a with | ⟨0, _⟩ => rfl | ⟨1, _⟩ => rfl
  simp only [Read.val_main_v20_apply, e20, Read.val_main_v17_apply, Read.val_main_v14_apply, Read.val_main_v16_apply,
    Read.val_main_v13_apply, Read.val_main_v15_apply, Read.val_main_c_2_apply, Read.val_main_c_3_apply, tok_at]
  have hc : ¬ IntOp.cmpi .slt (x (at3 p l)) 0#32 = 1#1 := by
    rw [IntOp.cmpi_slt]
    have h0 : (0#32 : BitVec 32).toInt = 0 := by decide
    have := hx (at3 p l)
    omega
  rw [eq_zero_of_ne_one hc]
  exact select_zero _ _

/-- Position `(p, l)` lands on entry `(r, q)` exactly when it is in row `r` and its token is `q`. -/
private theorem lands_iff (x : IVec S128x1024x16 32) (hx : ∀ i, 0 ≤ (x i).toInt) (p : Fin 131072) (l : Fin 16) (r : Fin 131072)
    (q : Fin 256) :
    dims.resultIdx? (ix2 p l) (Read.val_main_v21 (F := Ideal) x) = some (ix2 r q) ↔
      p = r ∧ (x (at3 p l)).toInt = (q.val : Int) := by
  rw [Cert.LibScatterPoint.resultIdx?_point dims rfl rfl rfl rfl _ p l r q, idx_row, idx_col x hx,
    StableHlo.Predicate.toInt_ofNat_small _ (by have := p.isLt; omega)]
  constructor
  · rintro ⟨h1, h2⟩; exact ⟨Fin.ext (by omega), h2⟩
  · rintro ⟨h1, h2⟩; exact ⟨by rw [h1], h2⟩

/-- The scatter's operands are the zero table, the index pairs and the flattened mask. -/
private theorem term_eq (x : IVec S128x1024x16 32) :
    (Host.scatterAdd scatter_S131072x256_S131072x16x2_S131072x16_n_01_01_2 (broadcastInDim S131072x256 ![] bcast_S_S131072x256 (constant S_ .f32 0x00000000#32)) (concatenate S131072x16x2 2 [⟨S131072x16x1, (broadcastInDim S131072x16x1 ![0, 1] bcast_S131072x16_S131072x16x1_0_1 (broadcastInDim S131072x16 ![0, 1] bcast_S131072x1_S131072x16_0_1 (select (cmpi .slt (broadcastInDim S131072x1 ![0] bcast_S131072_S131072x1_0 (iotaInDim S131072 32 0)) (broadcastInDim S131072x1 ![] bcast_S_S131072x1 (constantI S_ 32 0#32))) (addi (broadcastInDim S131072x1 ![0] bcast_S131072_S131072x1_0 (iotaInDim S131072 32 0)) (broadcastInDim S131072x1 ![] bcast_S_S131072x1 (constantI S_ 32 131072#32))) (broadcastInDim S131072x1 ![0] bcast_S131072_S131072x1_0 (iotaInDim S131072 32 0)))))⟩, ⟨S131072x16x1, (broadcastInDim S131072x16x1 ![0, 1] bcast_S131072x16_S131072x16x1_0_1 (select (cmpi .slt (shapeCast _ x shapeCasts_S128x1024x16_S131072x16) (broadcastInDim S131072x16 ![] bcast_S_S131072x16 (constantI S_ 32 0#32))) (addi (shapeCast _ x shapeCasts_S128x1024x16_S131072x16) (broadcastInDim S131072x16 ![] bcast_S_S131072x16 (constantI S_ 32 256#32))) (shapeCast _ x shapeCasts_S128x1024x16_S131072x16)))⟩] concatenates_S131072x16x1_S131072x16x1_S131072x16x2_d2) (shapeCast _ (uitofp .f32 (cmpi .ne x (broadcastInDim S128x1024x16 ![] bcast_S_S128x1024x16 (constantI S_ 32 0#32)))) shapeCasts_S128x1024x16_S131072x16) : FVec Ideal S131072x256 .f32)
      = Host.scatterAdd dims (Read.val_main_v7 (F := Ideal)) (Read.val_main_v21 (F := Ideal) x) (Read.val_main_v4 (F := Ideal) x) := rfl

/-- The scatter of the reference's run, as a function of the token array with every token non-negative, is the histogram table of
    the flattened tokens. -/
theorem scatter_eq (x : IVec S128x1024x16 32) (hx : ∀ i, 0 ≤ (x i).toInt) :
    (Host.scatterAdd scatter_S131072x256_S131072x16x2_S131072x16_n_01_01_2 (broadcastInDim S131072x256 ![] bcast_S_S131072x256 (constant S_ .f32 0x00000000#32)) (concatenate S131072x16x2 2 [⟨S131072x16x1, (broadcastInDim S131072x16x1 ![0, 1] bcast_S131072x16_S131072x16x1_0_1 (broadcastInDim S131072x16 ![0, 1] bcast_S131072x1_S131072x16_0_1 (select (cmpi .slt (broadcastInDim S131072x1 ![0] bcast_S131072_S131072x1_0 (iotaInDim S131072 32 0)) (broadcastInDim S131072x1 ![] bcast_S_S131072x1 (constantI S_ 32 0#32))) (addi (broadcastInDim S131072x1 ![0] bcast_S131072_S131072x1_0 (iotaInDim S131072 32 0)) (broadcastInDim S131072x1 ![] bcast_S_S131072x1 (constantI S_ 32 131072#32))) (broadcastInDim S131072x1 ![0] bcast_S131072_S131072x1_0 (iotaInDim S131072 32 0)))))⟩, ⟨S131072x16x1, (broadcastInDim S131072x16x1 ![0, 1] bcast_S131072x16_S131072x16x1_0_1 (select (cmpi .slt (shapeCast _ x shapeCasts_S128x1024x16_S131072x16) (broadcastInDim S131072x16 ![] bcast_S_S131072x16 (constantI S_ 32 0#32))) (addi (shapeCast _ x shapeCasts_S128x1024x16_S131072x16) (broadcastInDim S131072x16 ![] bcast_S_S131072x16 (constantI S_ 32 256#32))) (shapeCast _ x shapeCasts_S128x1024x16_S131072x16)))⟩] concatenates_S131072x16x1_S131072x16x1_S131072x16x2_d2) (shapeCast _ (uitofp .f32 (cmpi .ne x (broadcastInDim S128x1024x16 ![] bcast_S_S128x1024x16 (constantI S_ 32 0#32)))) shapeCasts_S128x1024x16_S131072x16) : FVec Ideal S131072x256 .f32)
      = Cert.Hist.table (shapeCast S131072x16 x shapeCasts_S128x1024x16_S131072x16) := by
  refine (term_eq x).trans ?_
  show _ = Cert.Hist.table (Read.val_main_v3 (F := Ideal) x)
  funext i
  obtain ⟨r, q, rfl⟩ : ∃ r q, i = ix2 r q := ⟨i 0, i 1, eq_ix2 i⟩
  -- the entry is the zero table's plus the mask summed over the positions that land on it
  simp only [Host.scatterAdd, Ideal.hostScatterAdd_def, Ideal.hostScatterAdd]
  rw [zero_at, zero_add, Finset.sum_filter, sum_idx2]
  -- only the positions of row r land in row r
  rw [Finset.sum_eq_single r
    (fun p _ hp => Finset.sum_eq_zero fun l _ => if_neg fun h => hp ((lands_iff x hx p l r q).1 h).1)
    (fun h => absurd (Finset.mem_univ r) h)]
  show _ = binCount (fun l => Read.val_main_v3 (F := Ideal) x (ix2 r l)) q
  unfold binCount
  by_cases hq : q.val = 0
  · -- bin 0: a position landing there holds the padding id, whose mask is zero
    rw [if_pos hq]
    refine Finset.sum_eq_zero fun l _ => ?_
    by_cases hc : dims.resultIdx? (ix2 r l) (Read.val_main_v21 (F := Ideal) x) = some (ix2 r q)
    · rw [if_pos hc, mask_at, if_pos]
      have h2 := ((lands_iff x hx r l r q).1 hc).2
      apply BitVec.eq_of_toInt_eq
      rw [h2, hq]; decide
    · rw [if_neg hc]
  · -- any other bin: a position landing there holds a token other than the padding id, whose mask is one
    rw [if_neg hq]
    refine Finset.sum_congr rfl fun l _ => ?_
    beta_reduce
    rw [tok_at]
    by_cases hc : (x (at3 r l)).toInt = (q.val : Int)
    · rw [if_pos ((lands_iff x hx r l r q).2 ⟨rfl, hc⟩), if_pos hc, mask_at, if_neg]
      intro h0
      rw [h0] at hc
      have h00 : (0#32 : BitVec 32).toInt = 0 := by decide
      omega
    · rw [if_neg fun h => hc ((lands_iff x hx r l r q).1 h).2, if_neg hc]

end Cert.Hist.Ref

end
-- ==== Proof.PreNonneg.lean ====
/-
  WHAT THE PRECONDITION SAYS. The precondition is the conjunction, over every position of the token array, of "the token is at least
  zero as a signed integer"; when it is all ones every token is non-negative.
-/
import proofs.«414719_j17334488007265_3_alg».proof.Proof.Gen.Pre_any_inputs
import Idealize.ShloMosaic.PureOps.Ideal
import Idealize.ShloMosaic.Lib.ReduceAll
import Idealize.ShloMosaic.Lib.StableHlo.Predicate

noncomputable section

namespace Cert.Hist.Pre

open Cert.Pre_any_inputs Cert.Pre_any_inputs.Gen Idealize.ShloMosaic

/-- If the precondition evaluates to all ones on a token array, every token read signed is non-negative. -/
theorem nonneg_of_pre (x : IVec S128x1024x16 32) (h : Cert.Pre_any_inputs.fn (F := Ideal) x = fun _ => 1#1) :
    ∀ i, 0 ≤ (x i).toInt := by
  intro i
  -- the one entry of the result is the conjunction over all positions
  have h0 := congrFun h (fun a => a.elim0)
  dsimp only [Cert.Pre_any_inputs.fn] at h0
  haveI : Subsingleton S_.Idx := ⟨fun a b => funext fun d => d.elim0⟩
  -- a conjunction that is one had a one at every position
  have h1 := Host.reduce_andi_all _ _ _ _ _ h0 i
  -- at position i the compared words are the token and the constant zero
  have h2 : IntOp.cmpi .sge (x i) 0#32 = 1#1 := h1
  have h3 := IntOp.cmpi_sge.1 h2
  have h4 : (0#32 : BitVec 32).toInt = 0 := by decide
  omega

end Cert.Hist.Pre

end
-- ==== Proof.lean ====
/-
  THE CERTIFICATE. Both programs compute, for every word (a row of the 131072 × 16 table of token ids, the argument flattened) and every
  bin of 256, how many of the word's sixteen tokens equal the bin, with bin 0 (the padding id) left at zero; the result is that table
  reshaped to 128 × 1024 × 256. The kernel compares each token column against the lane iota in chunks of 512 rows and zeroes lane 0;
  the reference scatters the not-padding mask into a zero table at (row, token). Under the precondition that every token id is
  non-negative (a negative id is wrapped by the reference's indexing and counted in another bin, while the kernel's compares count
  nothing for it) the two tables are equal entry by entry.
-/
import proofs.«414719_j17334488007265_3_alg».proof.Defs
import proofs.«414719_j17334488007265_3_alg».proof.Proof.Gen.Kernel
import proofs.«414719_j17334488007265_3_alg».proof.Proof.Gen.Kernel.Skeleton
import proofs.«414719_j17334488007265_3_alg».proof.Proof.Gen.Kernel.Launch
import proofs.«414719_j17334488007265_3_alg».proof.Proof.Gen.Kernel.Points
import proofs.«414719_j17334488007265_3_alg».proof.Proof.Gen.Kernel.Frame
import proofs.«414719_j17334488007265_3_alg».proof.Proof.Gen.KernelIdeal
import proofs.«414719_j17334488007265_3_alg».proof.Proof.Gen.KernelIdeal.Skeleton
import proofs.«414719_j17334488007265_3_alg».proof.Proof.Gen.KernelIdeal.Launch
import proofs.«414719_j17334488007265_3_alg».proof.Proof.Gen.KernelIdeal.Points
import proofs.«414719_j17334488007265_3_alg».proof.Proof.Gen.KernelIdeal.Frame
import proofs.«414719_j17334488007265_3_alg».proof.Proof.Gen.ReferenceIdeal
import proofs.«414719_j17334488007265_3_alg».proof.Proof.Gen.ReferenceIdeal.Run
import proofs.«414719_j17334488007265_3_alg».proof.Proof.Gen.ReferenceIdeal.Read
import proofs.«414719_j17334488007265_3_alg».proof.Proof.Gen.Pre_any_inputs
import proofs.«414719_j17334488007265_3_alg».proof.Proof.KernelTable
import proofs.«414719_j17334488007265_3_alg».proof.Proof.RefTable
import proofs.«414719_j17334488007265_3_alg».proof.Proof.PreNonneg
import Idealize.ShloMosaic.Adequacy
import Idealize.ShloMosaic.Init

noncomputable section

namespace Cert.Proof

open Idealize.ShloMosaic Idealize.SL.Sem

/-- The word-level kernel runs and leaves its argument alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends at the reshaped histogram table of the flattened argument; the reference's run ends at the reshape of its
    scatter, which under the precondition (every token non-negative) is the same table. -/
theorem algebraic : Cert.algebraic_KernelIdeal_ReferenceIdeal := by
  intro m ρ m' ρ' hpre hagree
  refine ⟨_, Cert.Hist.Kernel.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact congrArg (fun v => shapeCast _ v Cert.ReferenceIdeal.Gen.shapeCasts_S131072x256_S128x1024x256)
    (Cert.Hist.Ref.scatter_eq _ (Cert.Hist.Pre.nonneg_of_pre _ (hpre c)))

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
